-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x4096x128 : Shape := ⟨3, ![64, 4096, 128]⟩
abbrev S32x128 : Shape := ⟨2, ![32, 128]⟩
abbrev S32 : Shape := ⟨1, ![32]⟩
abbrev S_ : Shape := ⟨0, ![]⟩

class Facts : Prop where
  bcast_S_S64x4096x128 : S_.BroadcastsInDim S64x4096x128 (![] : Fin 0 → Fin S64x4096x128.rank)
  reducesTo_S64x4096x128_S_d0_1_2 : S64x4096x128.ReducesTo [0, 1, 2] S_
  h_S_ : 0 < S_.numel
  bcast_S_S32x128 : S_.BroadcastsInDim S32x128 (![] : Fin 0 → Fin S32x128.rank)
  reducesTo_S32x128_S_d0_1 : S32x128.ReducesTo [0, 1] S_
  bcast_S_S32 : S_.BroadcastsInDim S32 (![] : Fin 0 → Fin S32.rank)
  reducesTo_S32_S_d0 : S32.ReducesTo [0] S_

variable [Facts]

def fn {F : FTy → Type} [FloatOps F] (main_arg0 : FVec F S64x4096x128 .f32) (main_arg1 : FVec F S32x128 .f32) (main_arg2 : FVec F S32 .f32) : IVec S_ 1 :=
  let main_v0 : FVec F S64x4096x128 .f32 := Host.absf main_arg0
  let main_cst : FVec F S_ .f32 := constant S_ .f32 0x7F800000#32
  let main_v1 : FVec F S64x4096x128 .f32 := broadcastInDim S64x4096x128 ![] bcast_S_S64x4096x128 main_cst
  let main_v2 : IVec S64x4096x128 1 := cmpf .olt main_v0 main_v1
  let main_c : IVec S_ 1 := constantI S_ 1 1#1
  let main_v3 : IVec S_ 1 := (fun x v => Host.reduce IntOp.andi x v reducesTo_S64x4096x128_S_d0_1_2 h_S_) main_v2 main_c
  let main_v4 : FVec F S32x128 .f32 := Host.absf main_arg1
  let main_cst_0 : FVec F S_ .f32 := constant S_ .f32 0x7F800000#32
  let main_v5 : FVec F S32x128 .f32 := broadcastInDim S32x128 ![] bcast_S_S32x128 main_cst_0
  let main_v6 : IVec S32x128 1 := cmpf .olt main_v4 main_v5
  let main_c_1 : IVec S_ 1 := constantI S_ 1 1#1
  let main_v7 : IVec S_ 1 := (fun x v => Host.reduce IntOp.andi x v reducesTo_S32x128_S_d0_1 h_S_) main_v6 main_c_1
  let main_v8 : IVec S_ 1 := andi main_v3 main_v7
  let main_v9 : FVec F S32 .f32 := Host.absf main_arg2
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  main_v13
-- ==== Kernel.lean ====
abbrev S64x4096x128 : Shape := ⟨3, ![64, 4096, 128]⟩
abbrev S32x128 : Shape := ⟨2, ![32, 128]⟩
abbrev S32 : Shape := ⟨1, ![32]⟩
abbrev S64x32x128 : Shape := ⟨3, ![64, 32, 128]⟩
abbrev S1x4096x128 : Shape := ⟨3, ![1, 4096, 128]⟩
abbrev S1x32x128 : Shape := ⟨3, ![1, 32, 128]⟩
abbrev S4096x128 : Shape := ⟨2, ![4096, 128]⟩
abbrev S4096 : Shape := ⟨1, ![4096]⟩
abbrev S4096x1 : Shape := ⟨2, ![4096, 1]⟩
abbrev S4096x32 : Shape := ⟨2, ![4096, 32]⟩
abbrev S1x32 : Shape := ⟨2, ![1, 32]⟩
abbrev S32x1 : Shape := ⟨2, ![32, 1]⟩

abbrev nBuf : Space → Nat
  | .hbm => 4
  | .vmem => 6
  | .smem => 0
  | _ => 0

abbrev bufTy : (tb : Table) → Fin (tcTables nBuf tb) → BufTy
  | .hbm, ⟨0, _⟩ => ⟨S64x4096x128, .f32⟩
  | .hbm, ⟨1, _⟩ => ⟨S32x128, .f32⟩
  | .hbm, ⟨2, _⟩ => ⟨S32, .f32⟩
  | .hbm, ⟨3, _⟩ => ⟨S64x32x128, .f32⟩
  | .local _ .vmem, ⟨0, _⟩ => ⟨S1x4096x128, .f32⟩
  | .local _ .vmem, ⟨1, _⟩ => ⟨S1x4096x128, .f32⟩
  | .local _ .vmem, ⟨2, _⟩ => ⟨S32x128, .f32⟩
  | .local _ .vmem, ⟨3, _⟩ => ⟨S32, .f32⟩
  | .local _ .vmem, ⟨4, _⟩ => ⟨S1x32x128, .f32⟩
  | .local _ .vmem, ⟨5, _⟩ => ⟨S1x32x128, .f32⟩
  | _, _ => ⟨S64x4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x32x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S1x4096x128_S1x4096x128_0_0_0 : ∀ a, (![0, 0, 0] : Fin 3 → Nat) a + S1x4096x128.size a ≤ S1x4096x128.size a
  h_S1x4096x128 : 0 < S1x4096x128.numel
  shapeCasts_S1x4096x128_S4096x128 : S1x4096x128.ShapeCasts S4096x128
  inb_S32x128_S32x128_0_0 : ∀ a, (![0, 0] : Fin 2 → Nat) a + S32x128.size a ≤ S32x128.size a
  h_S32x128 : 0 < S32x128.numel
  inb_S32_S32_0 : ∀ a, (![0] : Fin 1 → Nat) a + S32.size a ≤ S32.size a
  h_S32 : 0 < S32.numel
  reduces_S4096x128_S4096 : S4096x128.Reduces [1] S4096
  shapeCasts_S4096_S4096x1 : S4096.ShapeCasts S4096x1
  reduces_S32x128_S32 : S32x128.Reduces [1] S32
  broadcasts_S4096x1_S4096x32 : S4096x1.Broadcasts S4096x32
  shapeCasts_S32_S1x32 : S32.ShapeCasts S1x32
  broadcasts_S1x32_S4096x32 : S1x32.Broadcasts S4096x32
  reduces_S4096x32_S4096 : S4096x32.Reduces [1] S4096
  reduces_S4096x32_S32 : S4096x32.Reduces [0] S32
  shapeCasts_S32_S32x1 : S32.ShapeCasts S32x1
  broadcasts_S32x1_S32x128 : S32x1.Broadcasts S32x128
  inb_S1x32x128_S1x32x128_0_0_0 : ∀ a, (![0, 0, 0] : Fin 3 → Nat) a + S1x32x128.size a ≤ S1x32x128.size a
  h_S1x32x128 : 0 < S1x32x128.numel
  shapeCasts_S1x32x128_S32x128 : S1x32x128.ShapeCasts S32x128
  shapeCasts_S32x128_S1x32x128 : S32x128.ShapeCasts S1x32x128
  dot_S4096x128_S32x128_S4096x32_1_1_0_0_n_n_wf : DotDims.WF S4096x128 S32x128 S4096x32 [1] [1] [0] [0] [] []
  dot_S4096x32_S4096x128_S32x128_0_0_1_1_n_n_wf : DotDims.WF S4096x32 S4096x128 S32x128 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4096x128.size a ≤ S64x4096x128.size a
  hwx0_0 : ∀ i : grid0.Coords, EltTy.bits .f32 = 32 ∨ (Rect.block (s := S64x4096x128) S1x4096x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x128.size a ≤ S32x128.size a
  hwx0_1 : ∀ i : grid0.Coords, EltTy.bits .f32 = 32 ∨ (Rect.block (s := S32x128) S32x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32.size a ≤ S32.size a
  hwx0_2 : ∀ i : grid0.Coords, EltTy.bits .f32 = 32 ∨ (Rect.block (s := S32) S32.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x32x128.size a ≤ S64x32x128.size a
  hwx0_3 : ∀ i : grid0.Coords, EltTy.bits .f32 = 32 ∨ (Rect.block (s := S64x32x128) S1x32x128.size (cc0_transform_3 i) (hinb0_3 i)).WholeWords (EltTy.packing .f32)

variable [Facts₀]

def dot_S4096x128_S32x128_S4096x32_1_1_0_0_n_n : DotDims S4096x128 S32x128 S4096x32 where
  lhsContracting := [1]
  rhsContracting := [1]
  lhsNonContracting := [0]
  rhsNonContracting := [0]
  lhsBatch := []
  rhsBatch := []
  wf := dot_S4096x128_S32x128_S4096x32_1_1_0_0_n_n_wf
def dot_S4096x32_S4096x128_S32x128_0_0_1_1_n_n : DotDims S4096x32 S4096x128 S32x128 where
  lhsContracting := [0]
  rhsContracting := [0]
  lhsNonContracting := [1]
  rhsNonContracting := [1]
  lhsBatch := []
  rhsBatch := []
  wf := dot_S4096x32_S4096x128_S32x128_0_0_1_1_n_n_wf

abbrev win0_0 : Pipeline.Window sig grid0 :=
  Pipeline.Window.ofSpec (Memref.whole main_arg0) S1x4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S32x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x32x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S64x4096x128 : Shape := ⟨3, ![64, 4096, 128]⟩
abbrev S32x128 : Shape := ⟨2, ![32, 128]⟩
abbrev S32 : Shape := ⟨1, ![32]⟩
abbrev S_ : Shape := ⟨0, ![]⟩
abbrev S64x4096 : Shape := ⟨2, ![64, 4096]⟩
abbrev S64x4096x1 : Shape := ⟨3, ![64, 4096, 1]⟩
abbrev S64x4096x32 : Shape := ⟨3, ![64, 4096, 32]⟩
abbrev S1x1x32 : Shape := ⟨3, ![1, 1, 32]⟩
abbrev S64x32x128 : Shape := ⟨3, ![64, 32, 128]⟩
abbrev S64x32 : Shape := ⟨2, ![64, 32]⟩
abbrev S64x32x1 : Shape := ⟨3, ![64, 32, 1]⟩
abbrev S1x32x128 : Shape := ⟨3, ![1, 32, 128]⟩

abbrev nBuf : Space → Nat
  | .hbm => 45
  | .vmem => 0
  | .smem => 0
  | _ => 0

abbrev bufTy : (tb : Table) → Fin (tcTables nBuf tb) → BufTy
  | .hbm, ⟨0, _⟩ => ⟨S64x4096x128, .f32⟩
  | .hbm, ⟨1, _⟩ => ⟨S32x128, .f32⟩
  | .hbm, ⟨2, _⟩ => ⟨S32, .f32⟩
  | .hbm, ⟨3, _⟩ => ⟨S64x4096x128, .f32⟩
  | .hbm, ⟨4, _⟩ => ⟨S_, .f32⟩
  | .hbm, ⟨5, _⟩ => ⟨S64x4096, .f32⟩
  | .hbm, ⟨6, _⟩ => ⟨S64x4096x1, .f32⟩
  | .hbm, ⟨7, _⟩ => ⟨S32x128, .f32⟩
  | .hbm, ⟨8, _⟩ => ⟨S_, .f32⟩
  | .hbm, ⟨9, _⟩ => ⟨S32, .f32⟩
  | .hbm, ⟨10, _⟩ => ⟨S64x4096x32, .f32⟩
  | .hbm, ⟨11, _⟩ => ⟨S_, .f32⟩
  | .hbm, ⟨12, _⟩ => ⟨S64x4096x32, .f32⟩
  | .hbm, ⟨13, _⟩ => ⟨S64x4096x32, .f32⟩
  | .hbm, ⟨14, _⟩ => ⟨S64x4096x32, .f32⟩
  | .hbm, ⟨15, _⟩ => ⟨S64x4096x32, .f32⟩
  | .hbm, ⟨16, _⟩ => ⟨S1x1x32, .f32⟩
  | .hbm, ⟨17, _⟩ => ⟨S64x4096x32, .f32⟩
  | .hbm, ⟨18, _⟩ => ⟨S64x4096x32, .f32⟩
  | .hbm, ⟨19, _⟩ => ⟨S1x1x32, .f32⟩
  | .hbm, ⟨20, _⟩ => ⟨S64x4096x32, .f32⟩
  | .hbm, ⟨21, _⟩ => ⟨S64x4096x32, .f32⟩
  | .hbm, ⟨22, _⟩ => ⟨S_, .f32⟩
  | .hbm, ⟨23, _⟩ => ⟨S64x4096, .f32⟩
  | .hbm, ⟨24, _⟩ => ⟨S_, .f32⟩
  | .hbm, ⟨25, _⟩ => ⟨S64x4096, .f32⟩
  | .hbm, ⟨26, _⟩ => ⟨S64x4096, .f32⟩
  | .hbm, ⟨27, _⟩ => ⟨S64x4096x1, .f32⟩
  | .hbm, ⟨28, _⟩ => ⟨S64x4096x32, .f32⟩
  | .hbm, ⟨29, _⟩ => ⟨S64x4096x32, .f32⟩
  | .hbm, ⟨30, _⟩ => ⟨S64x4096x32, .f32⟩
  | .hbm, ⟨31, _⟩ => ⟨S_, .f32⟩
  | .hbm, ⟨32, _⟩ => ⟨S64x4096, .f32⟩
  | .hbm, ⟨33, _⟩ => ⟨S64x4096x1, .f32⟩
  | .hbm, ⟨34, _⟩ => ⟨S64x4096x32, .f32⟩
  | .hbm, ⟨35, _⟩ => ⟨S64x4096x32, .f32⟩
  | .hbm, ⟨36, _⟩ => ⟨S64x32x128, .f32⟩
  | .hbm, ⟨37, _⟩ => ⟨S_, .f32⟩
  | .hbm, ⟨38, _⟩ => ⟨S64x32, .f32⟩
  | .hbm, ⟨39, _⟩ => ⟨S64x32x1, .f32⟩
  | .hbm, ⟨40, _⟩ => ⟨S1x32x128, .f32⟩
  | .hbm, ⟨41, _⟩ => ⟨S64x32x128, .f32⟩
  | .hbm, ⟨42, _⟩ => ⟨S64x32x128, .f32⟩
  | .hbm, ⟨43, _⟩ => ⟨S64x32x128, .f32⟩
  | .hbm, ⟨44, _⟩ => ⟨S64x32x128, .f32⟩
  | _, _ => ⟨S64x4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_4 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_5 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩

abbrev nD : Nat := 1
abbrev τ : Topo := Topo.v7x

variable {F : FTy → Type} [FloatOps F]

class Facts₀ : Prop where
  reducesTo_S64x4096x128_S64x4096_d2 : S64x4096x128.ReducesTo [2] S64x4096
  h_S_ : 0 < S_.numel
  bcast_S64x4096_S64x4096x1_0_1 : S64x4096.BroadcastsInDim S64x4096x1 (![0, 1] : Fin 2 → Fin S64x4096x1.rank)
  reducesTo_S32x128_S32_d1 : S32x128.ReducesTo [1] S32
  bcast_S_S64x4096x32 : S_.BroadcastsInDim S64x4096x32 (![] : Fin 0 → Fin S64x4096x32.rank)
  bcast_S64x4096x1_S64x4096x32_0_1_2 : S64x4096x1.BroadcastsInDim S64x4096x32 (![0, 1, 2] : Fin 3 → Fin S64x4096x32.rank)
  bcast_S32_S1x1x32_2 : S32.BroadcastsInDim S1x1x32 (![2] : Fin 1 → Fin S1x1x32.rank)
  bcast_S1x1x32_S64x4096x32_0_1_2 : S1x1x32.BroadcastsInDim S64x4096x32 (![0, 1, 2] : Fin 3 → Fin S64x4096x32.rank)
  reducesTo_S64x4096x32_S64x4096_d2 : S64x4096x32.ReducesTo [2] S64x4096
  bcast_S_S64x4096 : S_.BroadcastsInDim S64x4096 (![] : Fin 0 → Fin S64x4096.rank)
  reducesTo_S64x4096x32_S64x32_d1 : S64x4096x32.ReducesTo [1] S64x32
  bcast_S64x32_S64x32x1_0_1 : S64x32.BroadcastsInDim S64x32x1 (![0, 1] : Fin 2 → Fin S64x32x1.rank)
  bcast_S32x128_S1x32x128_1_2 : S32x128.BroadcastsInDim S1x32x128 (![1, 2] : Fin 2 → Fin S1x32x128.rank)
  bcast_S64x32x1_S64x32x128_0_1_2 : S64x32x1.BroadcastsInDim S64x32x128 (![0, 1, 2] : Fin 3 → Fin S64x32x128.rank)
  bcast_S1x32x128_S64x32x128_0_1_2 : S1x32x128.BroadcastsInDim S64x32x128 (![0, 1, 2] : Fin 3 → Fin S64x32x128.rank)
  dot_S64x4096x128_S32x128_S64x4096x32_2_1_01_0_n_n_wf : DotDims.WF S64x4096x128 S32x128 S64x4096x32 [2] [1] [0, 1] [0] [] []
  dot_S64x4096x32_S64x4096x128_S64x32x128_1_1_2_2_0_0_wf : DotDims.WF S64x4096x32 S64x4096x128 S64x32x128 [1] [1] [2] [2] [0] [0]

variable [Facts₀]

def dot_S64x4096x128_S32x128_S64x4096x32_2_1_01_0_n_n : DotDims S64x4096x128 S32x128 S64x4096x32 where
  lhsContracting := [2]
  rhsContracting := [1]
  lhsNonContracting := [0, 1]
  rhsNonContracting := [0]
  lhsBatch := []
  rhsBatch := []
  wf := dot_S64x4096x128_S32x128_S64x4096x32_2_1_01_0_n_n_wf
def dot_S64x4096x32_S64x4096x128_S64x32x128_1_1_2_2_0_0 : DotDims S64x4096x32 S64x4096x128 S64x32x128 where
  lhsContracting := [1]
  rhsContracting := [1]
  lhsNonContracting := [2]
  rhsNonContracting := [2]
  lhsBatch := [0]
  rhsBatch := [0]
  wf := dot_S64x4096x32_S64x4096x128_S64x32x128_1_1_2_2_0_0_wf

class Facts : Prop extends Facts₀ where

variable [Facts]
-- ==== Proof.Spec.lean ====
/-
  The function both programs compute, over the extended reals.
  For one batch entry, with rows `X t` (t < 4096, each of 128 coordinates), 32 codewords `C k` and one smoothing
  factor `S k` per codeword:
    score t k   = S k · ((‖X t‖² − 2 · ⟨X t, C k⟩) + ‖C k‖²)          -- S k · ‖X t − C k‖², expanded
    weight t k  = exp (score t k − M t) / Σ_j exp (score t j − M t)     -- the softmax over the codewords, M t the row's maximum
    residual k d = Σ_t weight t k · X t d − (Σ_t weight t k) · C k d    -- the weighted residuals Σ_t weight t k · (X t d − C k d), expanded
  and the result at `(n, k, d)` is `residual k d` of batch entry `n`'s rows. Every sum is a finite sum in the
  commutative monoid of the extended reals, so no order of summation is part of the definition; the row maximum is the
  fold of `max` from `−∞` over the 32 scores, once more compared with `−∞`, as both programs take it.
  The two literals (2 and −∞) are kept as their bit patterns: the same words appear on both sides and are never evaluated.
-/
import Idealize.ShloMosaic.PureOps.Ideal
import Idealize.ShloMosaic.PureOps.Ideal.Laws
import Idealize.ShloMosaic.Lib.ValueIdx

noncomputable section

namespace SoftAssign

open Idealize.ShloMosaic Idealize.ShloMosaic.ValueIdx

/-- The factor 2 of the expanded square, as the f32 word both programs carry. -/
abbrev two : EReal := Ideal.ofBits .f32 0x40000000#32
/-- −∞, the neutral element the row maximum starts from, as the f32 word both programs carry. -/
abbrev negInf : EReal := Ideal.ofBits .f32 0xFF800000#32

section Row
variable (X : Fin 4096 → Fin 128 → EReal) (C : Fin 32 → Fin 128 → EReal) (S : Fin 32 → EReal)

/-- ‖X t‖². -/
def sqNormX (t : Fin 4096) : EReal := ∑ d : Fin 128, X t d * X t d
/-- ‖C k‖². -/
def sqNormC (k : Fin 32) : EReal := ∑ d : Fin 128, C k d * C k d
/-- ⟨X t, C k⟩. -/
def cross (t : Fin 4096) (k : Fin 32) : EReal := ∑ d : Fin 128, X t d * C k d
/-- The scaled squared distance of row `t` to codeword `k`, in its expanded form. -/
def score (t : Fin 4096) (k : Fin 32) : EReal := S k * ((sqNormX X t - two * cross X C t k) + sqNormC C k)
/-- The largest score of row `t`. -/
def rowMax (t : Fin 4096) : EReal :=
  max negInf ((Finset.univ : Finset (Fin 32)).fold max negInf (fun k => score X C S t k))
/-- The shifted exponential. -/
def expo (t : Fin 4096) (k : Fin 32) : EReal := Ideal.exp (score X C S t k - rowMax X C S t)
/-- The softmax's denominator for row `t`. -/
def denom (t : Fin 4096) : EReal := ∑ k : Fin 32, expo X C S t k
/-- The soft assignment of row `t` to codeword `k`. -/
def weight (t : Fin 4096) (k : Fin 32) : EReal := Ideal.div (expo X C S t k) (denom X C S t)
/-- The aggregated residual of codeword `k` at coordinate `d`. -/
def residual (k : Fin 32) (d : Fin 128) : EReal :=
  (∑ t : Fin 4096, weight X C S t k * X t d) - (∑ t : Fin 4096, weight X C S t k) * C k d

end Row

/-- The whole result: at `(n, k, d)`, the aggregated residual computed from batch entry `n`'s rows. -/
def G (x : (⟨3, ![64, 4096, 128]⟩ : Shape).Idx → EReal) (c : (⟨2, ![32, 128]⟩ : Shape).Idx → EReal)
    (s : (⟨1, ![32]⟩ : Shape).Idx → EReal) : (⟨3, ![64, 32, 128]⟩ : Shape).Idx → EReal :=
  fun i => residual (fun t d => x (ix3 (i 0) t d)) (fun k d => c (ix2 k d)) (fun k => s (ix1 k)) (i 1) (i 2)

end SoftAssign

end
-- ==== Proof.LibKeepdims.lean ====
/-
  Trailing unit axes read at an index given by coordinates: the two layout steps of a `keepdims` reduction.
  A row statistic of an `[a, b]` matrix (a sum or a maximum along each row) is a vector `[a]`; to combine it with
  the matrix again it is first written as a column `[a, 1]` and the column is then repeated along the unit axis to
  `[a, b]`. Read at `(p, c)`, the result is the statistic of row `p`, whatever the column `c`:
  • `shapeCast_a_a1_apply`: an `[a]` vector cast to `[a, 1]` reads, at `(i, u)`, the vector at `i`;
  • `broadcastTo_a1_ab_apply`: an `[a, 1]` column broadcast to `[a, b]` reads, at `(p, c)`, the column at `(p, 0)`;
  • `keepdims_apply`: the two composed.
  These are the column counterparts of the row forms `[a] → [1, a]` and `[1, b] → [a, b]`.
-/
import Idealize.ShloMosaic.Lib.ValueLayout

namespace Keepdims

open Idealize.ShloMosaic Idealize.ShloMosaic.ValueIdx

variable {α : Type}

/-- An `[a]` array cast to the column `[a, 1]` reads, at `(i, u)`, the operand at `i`, whatever the unit
    coordinate `u`: both row-major positions are `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry in row `p`: the unit axis is
    read at `0`, the row axis at `p` (also when `a = 1`, where `p = 0`). -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A row statistic `[a]`, written as a column and repeated to `[a, b]`, reads at `(p, c)` the statistic of row `p`. -/
theorem keepdims_apply {a b : ℕ} (x : (⟨1, ![a]⟩ : Shape).Idx → α) (h : (⟨1, ![a]⟩ : Shape).ShapeCasts ⟨2, ![a, 1]⟩)
    (h' : (⟨2, ![a, 1]⟩ : Shape).Broadcasts ⟨2, ![a, b]⟩) (p : Fin a) (c : Fin b) :
    broadcastTo ⟨2, ![a, b]⟩ (shapeCast ⟨2, ![a, 1]⟩ x h) h' (ix2 p c) = x (ix1 p) := by
  rw [broadcastTo_a1_ab_apply, shapeCast_a_a1_apply]

end Keepdims
-- ==== Proof.LibMatrixReduce.lean ====
/-
  A matrix reduced along one of its two axes, read at an index given by coordinates, at the ideal (extended-real) values.
  For an `[a, b]` matrix `v`:
  • `add_axis1_apply`: the sum along each row, at `i`, is `Σ_k v (i, k)`;
  • `add_axis0_apply`: the sum down each column, at `k`, is `Σ_i v (i, k)`;
  • `max_axis1_apply`: the maximum along each row, at `i`, is the fold of `max` from the starting value over `k ↦ v (i, k)`.
  Each is the one-axis form of the reduction (a sum, or a fold of a commutative associative operation, over the dropped
  axis's coordinates) with the inserted index written out by coordinates.
-/
import Idealize.ShloMosaic.PureOps.Ideal.Laws
import Idealize.ShloMosaic.Lib.ValueIdx

namespace MatrixReduce

open Idealize.ShloMosaic Idealize.ShloMosaic.ValueIdx

variable {φ : FTy} {a b : ℕ}

/-- The row sums of an `[a, b]` matrix: at `i`, the sum over the row's `b` entries. -/
theorem add_axis1_apply (v : FVec Ideal ⟨2, ![a, b]⟩ φ) (acc : BitVec φ.bits)
    (h : Shape.Reduces ⟨2, ![a, b]⟩ [1] ⟨1, ![a]⟩) (hφ : FKind.Formats φ) (hacc : acc = FKind.add.neutral φ hφ) (i : Fin a) :
    multiReduction .add [1] ⟨1, ![a]⟩ v acc h hφ hacc (ix1 i) = ∑ k : Fin b, v (ix2 i k) :=
  (Ideal.multiReduction_add_single v acc h hφ hacc (ix1 i)).trans
    (Finset.sum_congr rfl fun k _ => congrArg v (funext fun ax => Fin.ext (by
      match ax with | ⟨0, _⟩ => rfl | ⟨1, _⟩ => rfl)))

/-- The column sums of an `[a, b]` matrix: at `k`, the sum over the column's `a` entries. -/
theorem add_axis0_apply (v : FVec Ideal ⟨2, ![a, b]⟩ φ) (acc : BitVec φ.bits)
    (h : Shape.Reduces ⟨2, ![a, b]⟩ [0] ⟨1, ![b]⟩) (hφ : FKind.Formats φ) (hacc : acc = FKind.add.neutral φ hφ) (k : Fin b) :
    multiReduction .add [0] ⟨1, ![b]⟩ v acc h hφ hacc (ix1 k) = ∑ i : Fin a, v (ix2 i k) :=
  (Ideal.multiReduction_add_single v acc h hφ hacc (ix1 k)).trans
    (Finset.sum_congr rfl fun i _ => congrArg v (funext fun ax => Fin.ext (by
      match ax with | ⟨0, _⟩ => rfl | ⟨1, _⟩ => rfl)))

/-- The row maxima of an `[a, b]` matrix: at `i`, the fold of `max` from the starting value over the row's entries. -/
theorem max_axis1_apply (v : FVec Ideal ⟨2, ![a, b]⟩ φ) (acc : BitVec φ.bits)
    (h : Shape.Reduces ⟨2, ![a, b]⟩ [1] ⟨1, ![a]⟩) (hφ : FKind.Formats φ) (hacc : acc = FKind.maximumf.neutral φ hφ) (i : Fin a) :
    multiReduction .maximumf [1] ⟨1, ![a]⟩ v acc h hφ hacc (ix1 i)
      = (Finset.univ : Finset (Fin b)).fold max (Ideal.ofBits φ acc) (fun k => v (ix2 i k)) :=
  (Ideal.multiReduction_maximumf_single v acc h hφ hacc (ix1 i)).trans
    (congrArg (fun f => (Finset.univ : Finset (Fin b)).fold max (Ideal.ofBits φ acc) f)
      (funext fun k => congrArg v (funext fun ax => Fin.ext (by
        match ax with | ⟨0, _⟩ => rfl | ⟨1, _⟩ => rfl))))

end MatrixReduce
-- ==== Proof.KernelStages.lean ====
/-
  The kernel body's arithmetic, cut into its four stages and read at coordinates, at the ideal (extended-real) values.
  At one grid point the body holds one batch entry's rows as a `[4096, 128]` matrix `v1`, the codewords `c` and the
  smoothing factors `s`, and computes
    scoreV v1 c s        [4096, 32]   s_k · ((Σ_d v1_td² − 2 · Σ_d v1_td c_kd) + Σ_d c_kd²)
    expoV sc             [4096, 32]   exp (sc_tk − max (−∞, max_k sc_tk))
    weightV e            [4096, 32]   e_tk / Σ_k e_tk
    residualV w v1 c     [32, 128]    Σ_t w_tk v1_td − (Σ_t w_tk) · c_kd
  where the two products Σ_d v1_td c_kd and Σ_t w_tk v1_td are matrix products into a zero accumulator (so plain sums
  over the contracted coordinate), the row statistics are written as columns and repeated along the rows, and the
  per-codeword vectors are written as rows and repeated down the columns. The stored value is the composition of the four
  stages with a leading unit axis added (`pay_eq_stages`, by unfolding); `pay_apply` reads it at `(0, k, d)` as the
  specification's `SoftAssign.residual` of the loaded blocks.
-/
import proofs.«106408_j85031762526316_1_alg».proof.Proof.Gen.KernelIdeal.Skeleton
import proofs.«106408_j85031762526316_1_alg».proof.Proof.Spec
import proofs.«106408_j85031762526316_1_alg».proof.Proof.LibKeepdims
import proofs.«106408_j85031762526316_1_alg».proof.Proof.LibMatrixReduce
import Idealize.ShloMosaic.Lib.ValueLayout
import Idealize.ShloMosaic.PureOps.Ideal.Laws

noncomputable section

namespace Cert.KernelIdeal.Body

open Cert.KernelIdeal Cert.KernelIdeal.Gen Idealize.ShloMosaic Idealize.ShloMosaic.ValueIdx SoftAssign

/-! ## The four stages, at any float values -/

/-- f32 is one of the formats a float reduction is stated for. -/
theorem f32_formats : FKind.Formats .f32 := .inl rfl
/-- The zero word is the neutral element of an f32 sum. -/
theorem zero_neutral : (0x00000000#32 : BitVec 32) = FKind.add.neutral .f32 f32_formats := rfl
/-- The −∞ word is the neutral element of an f32 maximum. -/
theorem negInf_neutral : (0xFF800000#32 : BitVec 32) = FKind.maximumf.neutral .f32 f32_formats := rfl

section Stages
variable {F : FTy → Type} [FloatOps F]

/-- The scaled, expanded squared distances of the rows to the codewords. -/
def scoreV (v1 : FVec F S4096x128 .f32) (c : FVec F S32x128 .f32) (s : FVec F S32 .f32) : FVec F S4096x32 .f32 :=
  mulf (broadcastTo S4096x32 (shapeCast S1x32 s shapeCasts_S32_S1x32) broadcasts_S1x32_S4096x32)
    (addf
      (subf
        (broadcastTo S4096x32
          (shapeCast S4096x1 (multiReduction .add [1] S4096 (mulf v1 v1) 0x00000000#32 reduces_S4096x128_S4096 f32_formats zero_neutral)
            shapeCasts_S4096_S4096x1) broadcasts_S4096x1_S4096x32)
        (mulf (broadcast S4096x32 (Scalar.ofBits .f32 0x40000000#32))
          (matmul dot_S4096x128_S32x128_S4096x32_1_1_0_0_n_n none v1 c (constant S4096x32 .f32 0x00000000#32))))
      (broadcastTo S4096x32
        (shapeCast S1x32 (multiReduction .add [1] S32 (mulf c c) 0x00000000#32 reduces_S32x128_S32 f32_formats zero_neutral)
          shapeCasts_S32_S1x32) broadcasts_S1x32_S4096x32))

/-- The exponentials of the scores, each row shifted by its maximum. -/
def expoV (sc : FVec F S4096x32 .f32) : FVec F S4096x32 .f32 :=
  exp (subf sc
    (broadcastTo S4096x32
      (shapeCast S4096x1
        (maximumf (broadcast S4096 (Scalar.ofBits .f32 0xFF800000#32))
          (multiReduction .maximumf [1] S4096 sc 0xFF800000#32 reduces_S4096x32_S4096 f32_formats negInf_neutral))
        shapeCasts_S4096_S4096x1) broadcasts_S4096x1_S4096x32))

/-- Each row normalised by its sum. -/
def weightV (e : FVec F S4096x32 .f32) : FVec F S4096x32 .f32 :=
  divf e
    (broadcastTo S4096x32
      (shapeCast S4096x1 (multiReduction .add [1] S4096 e 0x00000000#32 reduces_S4096x32_S4096 f32_formats zero_neutral)
        shapeCasts_S4096_S4096x1) broadcasts_S4096x1_S4096x32)

/-- The weights contracted with the rows, less the weights' column sums times the codewords. -/
def residualV (w : FVec F S4096x32 .f32) (v1 : FVec F S4096x128 .f32) (c : FVec F S32x128 .f32) : FVec F S32x128 .f32 :=
  subf (matmul dot_S4096x32_S4096x128_S32x128_0_0_1_1_n_n none w v1 (constant S32x128 .f32 0x00000000#32))
    (mulf
      (broadcastTo S32x128
        (shapeCast S32x1 (multiReduction .add [0] S32 w 0x00000000#32 reduces_S4096x32_S32 f32_formats zero_neutral)
          shapeCasts_S32_S32x1) broadcasts_S32x1_S32x128)
      c)

/-- The stored value is the four stages composed, over the loaded block with its unit axis dropped. -/
theorem pay_eq_stages (v0 : FVec F S1x4096x128 .f32) (c : FVec F S32x128 .f32) (s : FVec F S32 .f32) :
    k0_pay1 v0 c s
      = shapeCast S1x32x128
          (residualV (weightV (expoV (scoreV (shapeCast S4096x128 v0 shapeCasts_S1x4096x128_S4096x128) c s)))
            (shapeCast S4096x128 v0 shapeCasts_S1x4096x128_S4096x128) c)
          shapeCasts_S32x128_S1x32x128 := rfl

end Stages

/-! ## The two matrix products, read at an entry -/

/- Rows times codewords, `[4096, 128] · [32, 128]ᵀ`: both operands are read along their second axis. -/
theorem rowsCw_lhs_0 (i : S4096x32.Idx) (q : dot_S4096x128_S32x128_S4096x32_1_1_0_0_n_n.contr.Idx) :
    (dot_S4096x128_S32x128_S4096x32_1_1_0_0_n_n.lhsIdx i q 0).val = (i 0).val := by
  unfold DotDims.lhsIdx
  rw [dif_neg (show ¬(0 : Fin S4096x128.rank) ∈ dot_S4096x128_S32x128_S4096x32_1_1_0_0_n_n.lhsBatch by decide), dif_pos (show (0 : Fin S4096x128.rank) ∈ dot_S4096x128_S32x128_S4096x32_1_1_0_0_n_n.lhsNonContracting by decide)]
  rfl
theorem rowsCw_lhs_1 (i : S4096x32.Idx) (q : dot_S4096x128_S32x128_S4096x32_1_1_0_0_n_n.contr.Idx) :
    (dot_S4096x128_S32x128_S4096x32_1_1_0_0_n_n.lhsIdx i q 1).val = (q ⟨0, by decide⟩).val :=
  dot_S4096x128_S32x128_S4096x32_1_1_0_0_n_n.lhsIdx_val_of_single rfl i q
theorem rowsCw_rhs_0 (i : S4096x32.Idx) (q : dot_S4096x128_S32x128_S4096x32_1_1_0_0_n_n.contr.Idx) :
    (dot_S4096x128_S32x128_S4096x32_1_1_0_0_n_n.rhsIdx i q 0).val = (i 1).val := by
  unfold DotDims.rhsIdx
  rw [dif_neg (show ¬(0 : Fin S32x128.rank) ∈ dot_S4096x128_S32x128_S4096x32_1_1_0_0_n_n.rhsBatch by decide), dif_pos (show (0 : Fin S32x128.rank) ∈ dot_S4096x128_S32x128_S4096x32_1_1_0_0_n_n.rhsNonContracting by decide)]
  rfl
theorem rowsCw_rhs_1 (i : S4096x32.Idx) (q : dot_S4096x128_S32x128_S4096x32_1_1_0_0_n_n.contr.Idx) :
    (dot_S4096x128_S32x128_S4096x32_1_1_0_0_n_n.rhsIdx i q 1).val = (q ⟨0, by decide⟩).val :=
  dot_S4096x128_S32x128_S4096x32_1_1_0_0_n_n.rhsIdx_val_of_single rfl i q

/-- The inner products of the rows with the codewords: entry `(t, k)` is `Σ_d v1 (t, d) · c (k, d)`. -/
theorem rowsCw_apply (v1 : FVec Ideal S4096x128 .f32) (c : FVec Ideal S32x128 .f32) (t : Fin 4096) (k : Fin 32) :
    matmul dot_S4096x128_S32x128_S4096x32_1_1_0_0_n_n none v1 c (constant (F := Ideal) S4096x32 .f32 0x00000000#32) (ix2 t k)
      = ∑ d : Fin 128, v1 (ix2 t d) * c (ix2 k d) := by
  simp only [matmul]
  rw [Ideal.matmul_constant_zero_apply, ← Equiv.sum_comp (contrEquiv1 dot_S4096x128_S32x128_S4096x32_1_1_0_0_n_n 128 rfl rfl).symm]
  refine Finset.sum_congr rfl fun d _ => ?_
  have hk := contrEquiv1_symm_val dot_S4096x128_S32x128_S4096x32_1_1_0_0_n_n 128 rfl rfl d
  have el : dot_S4096x128_S32x128_S4096x32_1_1_0_0_n_n.lhsIdx (ix2 t k) ((contrEquiv1 dot_S4096x128_S32x128_S4096x32_1_1_0_0_n_n 128 rfl rfl).symm d) = ix2 t d := funext fun a => Fin.ext (by
    match a with
    | ⟨0, _⟩ => exact rowsCw_lhs_0 _ _
    | ⟨1, _⟩ => exact (rowsCw_lhs_1 _ _).trans hk)
  have er : dot_S4096x128_S32x128_S4096x32_1_1_0_0_n_n.rhsIdx (ix2 t k) ((contrEquiv1 dot_S4096x128_S32x128_S4096x32_1_1_0_0_n_n 128 rfl rfl).symm d) = ix2 k d := funext fun a => Fin.ext (by
    match a with
    | ⟨0, _⟩ => exact rowsCw_rhs_0 _ _
    | ⟨1, _⟩ => exact (rowsCw_rhs_1 _ _).trans hk)
  rw [el, er]

/- Weightsᵀ times rows, `[4096, 32]ᵀ · [4096, 128]`: both operands are read along their first axis. -/
theorem wRows_lhs_0 (i : S32x128.Idx) (q : dot_S4096x32_S4096x128_S32x128_0_0_1_1_n_n.contr.Idx) :
    (dot_S4096x32_S4096x128_S32x128_0_0_1_1_n_n.lhsIdx i q 0).val = (q ⟨0, by decide⟩).val :=
  dot_S4096x32_S4096x128_S32x128_0_0_1_1_n_n.lhsIdx_val_of_single rfl i q
theorem wRows_lhs_1 (i : S32x128.Idx) (q : dot_S4096x32_S4096x128_S32x128_0_0_1_1_n_n.contr.Idx) :
    (dot_S4096x32_S4096x128_S32x128_0_0_1_1_n_n.lhsIdx i q 1).val = (i 0).val := by
  unfold DotDims.lhsIdx
  rw [dif_neg (show ¬(1 : Fin S4096x32.rank) ∈ dot_S4096x32_S4096x128_S32x128_0_0_1_1_n_n.lhsBatch by decide), dif_pos (show (1 : Fin S4096x32.rank) ∈ dot_S4096x32_S4096x128_S32x128_0_0_1_1_n_n.lhsNonContracting by decide)]
  rfl
theorem wRows_rhs_0 (i : S32x128.Idx) (q : dot_S4096x32_S4096x128_S32x128_0_0_1_1_n_n.contr.Idx) :
    (dot_S4096x32_S4096x128_S32x128_0_0_1_1_n_n.rhsIdx i q 0).val = (q ⟨0, by decide⟩).val :=
  dot_S4096x32_S4096x128_S32x128_0_0_1_1_n_n.rhsIdx_val_of_single rfl i q
theorem wRows_rhs_1 (i : S32x128.Idx) (q : dot_S4096x32_S4096x128_S32x128_0_0_1_1_n_n.contr.Idx) :
    (dot_S4096x32_S4096x128_S32x128_0_0_1_1_n_n.rhsIdx i q 1).val = (i 1).val := by
  unfold DotDims.rhsIdx
  rw [dif_neg (show ¬(1 : Fin S4096x128.rank) ∈ dot_S4096x32_S4096x128_S32x128_0_0_1_1_n_n.rhsBatch by decide), dif_pos (show (1 : Fin S4096x128.rank) ∈ dot_S4096x32_S4096x128_S32x128_0_0_1_1_n_n.rhsNonContracting by decide)]
  rfl

/-- The weights contracted with the rows over the 4096 rows: entry `(k, d)` is `Σ_t w (t, k) · v1 (t, d)`. -/
theorem wRows_apply (w : FVec Ideal S4096x32 .f32) (v1 : FVec Ideal S4096x128 .f32) (k : Fin 32) (d : Fin 128) :
    matmul dot_S4096x32_S4096x128_S32x128_0_0_1_1_n_n none w v1 (constant (F := Ideal) S32x128 .f32 0x00000000#32) (ix2 k d)
      = ∑ t : Fin 4096, w (ix2 t k) * v1 (ix2 t d) := by
  simp only [matmul]
  rw [Ideal.matmul_constant_zero_apply, ← Equiv.sum_comp (contrEquiv1 dot_S4096x32_S4096x128_S32x128_0_0_1_1_n_n 4096 rfl rfl).symm]
  refine Finset.sum_congr rfl fun t _ => ?_
  have hk := contrEquiv1_symm_val dot_S4096x32_S4096x128_S32x128_0_0_1_1_n_n 4096 rfl rfl t
  have el : dot_S4096x32_S4096x128_S32x128_0_0_1_1_n_n.lhsIdx (ix2 k d) ((contrEquiv1 dot_S4096x32_S4096x128_S32x128_0_0_1_1_n_n 4096 rfl rfl).symm t) = ix2 t k := funext fun a => Fin.ext (by
    match a with
    | ⟨0, _⟩ => exact (wRows_lhs_0 _ _).trans hk
    | ⟨1, _⟩ => exact wRows_lhs_1 _ _)
  have er : dot_S4096x32_S4096x128_S32x128_0_0_1_1_n_n.rhsIdx (ix2 k d) ((contrEquiv1 dot_S4096x32_S4096x128_S32x128_0_0_1_1_n_n 4096 rfl rfl).symm t) = ix2 t d := funext fun a => Fin.ext (by
    match a with
    | ⟨0, _⟩ => exact (wRows_rhs_0 _ _).trans hk
    | ⟨1, _⟩ => exact wRows_rhs_1 _ _)
  rw [el, er]

/-! ## The reductions the body prints, read at an index -/

/-- A row's sum over its 128 coordinates. -/
theorem sumCoords_rows_apply (v : FVec Ideal S4096x128 .f32) (hφ : FKind.Formats .f32)
    (hacc : (0x00000000#32 : BitVec 32) = FKind.add.neutral .f32 hφ) (t : Fin 4096) :
    multiReduction .add [1] S4096 v 0x00000000#32 reduces_S4096x128_S4096 hφ hacc (ix1 t) = ∑ d : Fin 128, v (ix2 t d) :=
  MatrixReduce.add_axis1_apply v _ _ _ _ t
/-- A codeword's sum over its 128 coordinates. -/
theorem sumCoords_cw_apply (v : FVec Ideal S32x128 .f32) (hφ : FKind.Formats .f32)
    (hacc : (0x00000000#32 : BitVec 32) = FKind.add.neutral .f32 hφ) (k : Fin 32) :
    multiReduction .add [1] S32 v 0x00000000#32 reduces_S32x128_S32 hφ hacc (ix1 k) = ∑ d : Fin 128, v (ix2 k d) :=
  MatrixReduce.add_axis1_apply v _ _ _ _ k
/-- A row's sum over the 32 codewords. -/
theorem sumCw_apply (v : FVec Ideal S4096x32 .f32) (hφ : FKind.Formats .f32)
    (hacc : (0x00000000#32 : BitVec 32) = FKind.add.neutral .f32 hφ) (t : Fin 4096) :
    multiReduction .add [1] S4096 v 0x00000000#32 reduces_S4096x32_S4096 hφ hacc (ix1 t) = ∑ k : Fin 32, v (ix2 t k) :=
  MatrixReduce.add_axis1_apply v _ _ _ _ t
/-- A codeword's sum over the 4096 rows. -/
theorem sumRows_apply (v : FVec Ideal S4096x32 .f32) (hφ : FKind.Formats .f32)
    (hacc : (0x00000000#32 : BitVec 32) = FKind.add.neutral .f32 hφ) (k : Fin 32) :
    multiReduction .add [0] S32 v 0x00000000#32 reduces_S4096x32_S32 hφ hacc (ix1 k) = ∑ t : Fin 4096, v (ix2 t k) :=
  MatrixReduce.add_axis0_apply v _ _ _ _ k
/-- A row's maximum over the 32 codewords, from −∞. -/
theorem maxCw_apply (v : FVec Ideal S4096x32 .f32) (hφ : FKind.Formats .f32)
    (hacc : (0xFF800000#32 : BitVec 32) = FKind.maximumf.neutral .f32 hφ) (t : Fin 4096) :
    multiReduction .maximumf [1] S4096 v 0xFF800000#32 reduces_S4096x32_S4096 hφ hacc (ix1 t)
      = (Finset.univ : Finset (Fin 32)).fold max negInf (fun k => v (ix2 t k)) :=
  MatrixReduce.max_axis1_apply v _ _ _ _ t

/-- The exponential is taken entry by entry. -/
theorem exp_apply (v : FVec Ideal S4096x32 .f32) (i : S4096x32.Idx) : exp v i = Ideal.exp (v i) := rfl

/-! ## The four stages read at an entry -/

/-- The score of row `t` against codeword `k`. -/
theorem scoreV_apply (v1 : FVec Ideal S4096x128 .f32) (c : FVec Ideal S32x128 .f32) (s : FVec Ideal S32 .f32)
    (t : Fin 4096) (k : Fin 32) :
    scoreV (F := Ideal) v1 c s (ix2 t k)
      = score (fun t d => v1 (ix2 t d)) (fun k d => c (ix2 k d)) (fun k => s (ix1 k)) t k := by
  unfold scoreV
  simp only [mulf_apply, addf_apply, subf_apply, broadcast_apply, broadcastTo_1b_ab_apply, shapeCast_a_1a_apply,
    Keepdims.keepdims_apply, rowsCw_apply]
  rw [sumCoords_rows_apply, sumCoords_cw_apply]
  rfl

/-- The shifted exponential of row `t` at codeword `k`, from the row's scores. -/
theorem expoV_apply (sc : FVec Ideal S4096x32 .f32) (t : Fin 4096) (k : Fin 32) :
    expoV (F := Ideal) sc (ix2 t k)
      = Ideal.exp (sc (ix2 t k) - max negInf ((Finset.univ : Finset (Fin 32)).fold max negInf (fun k => sc (ix2 t k)))) := by
  unfold expoV
  rw [exp_apply, subf_apply, Keepdims.keepdims_apply, maximumf_apply, broadcast_apply, maxCw_apply]
  rfl

/-- A row's exponentials divided by their sum. -/
theorem weightV_apply (e : FVec Ideal S4096x32 .f32) (t : Fin 4096) (k : Fin 32) :
    weightV (F := Ideal) e (ix2 t k) = Ideal.div (e (ix2 t k)) (∑ k' : Fin 32, e (ix2 t k')) := by
  unfold weightV
  simp only [divf_apply, Keepdims.keepdims_apply]
  rw [sumCw_apply]

/-- The aggregated residual from the weights. -/
theorem residualV_apply (w : FVec Ideal S4096x32 .f32) (v1 : FVec Ideal S4096x128 .f32) (c : FVec Ideal S32x128 .f32)
    (k : Fin 32) (d : Fin 128) :
    residualV (F := Ideal) w v1 c (ix2 k d)
      = (∑ t : Fin 4096, w (ix2 t k) * v1 (ix2 t d)) - (∑ t : Fin 4096, w (ix2 t k)) * c (ix2 k d) := by
  unfold residualV
  simp only [subf_apply, mulf_apply, Keepdims.keepdims_apply, wRows_apply]
  rw [sumRows_apply]

/-! ## The stored value read at an entry -/

/-- What the body stores, at `(u, k, d)` (the unit coordinate `u` is `0`): the specification's aggregated residual of
    the loaded rows, codewords and smoothing factors. -/
theorem pay_apply (v0 : FVec Ideal S1x4096x128 .f32) (c : FVec Ideal S32x128 .f32) (s : FVec Ideal S32 .f32)
    (u : Fin 1) (k : Fin 32) (d : Fin 128) :
    k0_pay1 (F := Ideal) v0 c s (ix3 u k d)
      = residual (fun t d => v0 (ix3 (0 : Fin 1) t d)) (fun k d => c (ix2 k d)) (fun k => s (ix1 k)) k d := by
  rw [pay_eq_stages, shapeCast_ab_1ab_apply, residualV_apply]
  simp only [weightV_apply, expoV_apply, scoreV_apply, shapeCast_1ab_ab_apply]
  rfl

end Cert.KernelIdeal.Body

end
-- ==== Proof.KernelValue.lean ====
/-
  The kernel's result array is the specification `SoftAssign.G` of its three argument arrays.
  The grid has one point per batch entry. At point `n` the rows' window holds batch entry `n` (block `(n, 0, 0)` of the
  `[64, 4096, 128]` array, one entry thick), the codewords' and the smoothing factors' windows hold their whole arrays
  (block `0` at every point), and the result's window is block `(n, 0, 0)` of the `[64, 32, 128]` array. The body
  stores the aggregated residual of what it loaded (`Body.pay_apply`), so what point `n` writes back is block `n` of
  `G` of the arrays (`flushed_eq`); the 64 blocks cover the result array, index `(n, k, d)` lying in point `n`'s
  (`covered`); hence the array after the run is `G` of the arguments (`final`), and `run` is the generated run with
  that array named so.
-/
import proofs.«106408_j85031762526316_1_alg».proof.Proof.Gen.KernelIdeal.Value
import proofs.«106408_j85031762526316_1_alg».proof.Proof.KernelStages

set_option maxRecDepth 16384

noncomputable section

namespace Cert.KernelIdeal.Whole

open Cert.KernelIdeal Cert.KernelIdeal.Gen Idealize.ShloMosaic Idealize.ShloMosaic.TcCoe Idealize.SL.Sem
open Idealize.ShloMosaic.ValueIdx SoftAssign
open Idealize.ShloMosaic.Pipeline (Dat)

variable (m : (ℓ : Loc nD τ sig) → Buf (Elt Ideal) ℓ) (ρ : Dev nD → PrngReg)

theorem zeros3 : (![0, 0, 0] : Fin 3 → Nat) = fun _ => 0 := funext fun a => by fin_cases a <;> rfl
theorem zeros2 : (![0, 0] : Fin 2 → Nat) = fun _ => 0 := funext fun a => by fin_cases a <;> rfl
theorem zeros1 : (![0] : Fin 1 → Nat) = fun _ => 0 := funext fun a => by fin_cases a <;> rfl

/-- The block indices at point `t`, decided over the 64 points: the rows' and the result's windows are at batch entry
    `t`, the codewords' and the smoothing factors' at their one block. -/
theorem block_indices : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 1) = 0
    ∧ win0_3.index t (0 : Fin 3) = t.val ∧ win0_3.index t (1 : Fin 3) = 0 ∧ win0_3.index t (2 : Fin 3) = 0 :=
  (by decide +kernel : ∀ t : Fin grid0.N, _)

/-- One point's stored block against the whole-array function, over variables: if the loaded rows are batch entry
    `i 0` of `X`, the loaded codewords and factors are `C` and `S`, and `i` has `j`'s last two coordinates, the stored
    value at `j` is `G X C S` at `i`. -/
theorem stored_eq_G (x0 : FVec Ideal S1x4096x128 .f32) (c0 : FVec Ideal S32x128 .f32) (s0 : FVec Ideal S32 .f32)
    (X : FVec Ideal S64x4096x128 .f32) (C : FVec Ideal S32x128 .f32) (S : FVec Ideal S32 .f32)
    (j : S1x32x128.Idx) (i : S64x32x128.Idx)
    (hx : ∀ (t : Fin 4096) (d : Fin 128), x0 (ix3 (0 : Fin 1) t d) = X (ix3 (i 0) t d))
    (hc : ∀ (k : Fin 32) (d : Fin 128), c0 (ix2 k d) = C (ix2 k d)) (hs : ∀ k : Fin 32, s0 (ix1 k) = S (ix1 k))
    (h1 : (i 1).val = (j 1).val) (h2 : (i 2).val = (j 2).val) :
    k0_pay1 (F := Ideal) x0 c0 s0 j = G X C S i := by
  obtain ⟨u, k, d, rfl⟩ : ∃ (u : Fin 1) (k : Fin 32) (d : Fin 128), j = ix3 u k d := ⟨j 0, j 1, j 2, eq_ix3 j⟩
  have e1 : i 1 = k := Fin.ext h1
  have e2 : i 2 = d := Fin.ext h2
  rw [Body.pay_apply]
  unfold G
  rw [e1, e2]
  have ex : (fun (t : Fin 4096) (d : Fin 128) => x0 (ix3 (0 : Fin 1) t d)) = fun t d => X (ix3 (i 0) t d) :=
    funext fun t => funext fun d => hx t d
  have ec : (fun (k : Fin 32) (d : Fin 128) => c0 (ix2 k d)) = fun k d => C (ix2 k d) :=
    funext fun k => funext fun d => hc k d
  have es : (fun k : Fin 32 => s0 (ix1 k)) = fun k => S (ix1 k) := funext fun k => hs k
  rw [ex, ec, es]

/-- WHAT POINT `t` WRITES BACK is block `t` of `G` of the argument arrays as the region finds them. -/
theorem flushed_eq (c : Dev nD) (t : Fin cfg0.N) :
    (dats m 0 c).flushed 3 t
      = ((cfg0.win 3).blk t).view.read (Elt Ideal) (G (V m c main_arg0) (V m c main_arg1) (V m c main_arg2)) := by
  rw [Value.flushed3]
  unfold out0_3
  rw [View.canon_unit_zero zeros3]
  simp only [View.ld_unit_zero (S := S1x4096x128) zeros3, View.ld_unit_zero (S := S32x128) zeros2,
    View.ld_unit_zero (S := S32) zeros1]
  obtain ⟨a0, a1, a2, b0, b1, g0, r0, r1, r2⟩ := block_indices t
  funext j
  refine stored_eq_G (iblk m c 0 t) (iblk m c 1 t) (iblk m c 2 t) (V m c main_arg0) (V m c main_arg1) (V m c main_arg2)
    j (((cfg0.win 3).blk t).view.emb j) ?_ ?_ ?_ ?_ ?_
  · intro t' d
    show V m c main_arg0 (((cfg0.win 0).blk t).view.emb (ix3 (0 : Fin 1) t' d)) = _
    refine congrArg (V m c main_arg0) (funext fun a => Fin.ext ?_)
    match a with
    | ⟨0, _⟩ =>
      show win0_0.index t (0 : Fin 3) * 1 + 1 * 0 = win0_3.index t (0 : Fin 3) * 1 + 1 * (j 0).val
      have hj : (j 0).val < 1 := (j 0).isLt
      omega
    | ⟨1, _⟩ => show win0_0.index t (1 : Fin 3) * 4096 + 1 * t'.val = t'.val; omega
    | ⟨2, _⟩ => show win0_0.index t (2 : Fin 3) * 128 + 1 * d.val = d.val; omega
  · intro k d
    show V m c main_arg1 (((cfg0.win 1).blk t).view.emb (ix2 k d)) = _
    refine congrArg (V m c main_arg1) (funext fun a => Fin.ext ?_)
    match a with
    | ⟨0, _⟩ => show win0_1.index t (0 : Fin 2) * 32 + 1 * k.val = k.val; omega
    | ⟨1, _⟩ => show win0_1.index t (1 : Fin 2) * 128 + 1 * d.val = d.val; omega
  · intro k
    show V m c main_arg2 (((cfg0.win 2).blk t).view.emb (ix1 k)) = _
    refine congrArg (V m c main_arg2) (funext fun a => Fin.ext ?_)
    match a with
    | ⟨0, _⟩ => show win0_2.index t (0 : Fin 1) * 32 + 1 * k.val = k.val; omega
  · show win0_3.index t (1 : Fin 3) * 32 + 1 * (j 1).val = (j 1).val; omega
  · show win0_3.index t (2 : Fin 3) * 128 + 1 * (j 2).val = (j 2).val; omega

/-- Every index of the result array lies in some point's block: `(n, k, d)` in point `n`'s. -/
theorem covered (i : S64x32x128.Idx) :
    ∃ t : Fin cfg0.N, (cfg0.win 3).flush t = true ∧ i ∈ ((cfg0.win 3).blk t).view.set := by
  have h0 : (i 0).val < 64 := (i 0).isLt
  have h1 : (i 1).val < 32 := (i 1).isLt
  have h2 : (i 2).val < 128 := (i 2).isLt
  let t : Fin cfg0.N := ⟨(i 0).val, by rw [show cfg0.N = 64 from N_0]; exact h0⟩
  obtain ⟨-, -, -, -, -, -, r0, r1, r2⟩ := block_indices t
  refine ⟨t, flush0_3 t, ?_⟩
  show i ∈ ((View.whole main_v0).slice (win0_3.rect t)).set
  rw [View.set_slice_whole, Rect.mem_set_unit]
  intro a
  match a with
  | ⟨0, _⟩ =>
    show win0_3.index t (0 : Fin 3) * 1 ≤ (i 0).val ∧ (i 0).val < win0_3.index t (0 : Fin 3) * 1 + 1
    have ht : t.val = (i 0).val := rfl
    omega
  | ⟨1, _⟩ =>
    show win0_3.index t (1 : Fin 3) * 32 ≤ (i 1).val ∧ (i 1).val < win0_3.index t (1 : Fin 3) * 32 + 32
    omega
  | ⟨2, _⟩ =>
    show win0_3.index t (2 : Fin 3) * 128 ≤ (i 2).val ∧ (i 2).val < win0_3.index t (2 : Fin 3) * 128 + 128
    omega

/-- THE ARRAY after the run is `G` of the argument arrays. -/
theorem final (c : Dev nD) :
    (dats m 0 c).arrAt 3 cfg0.N
      = G (m ((c : Thread nD τ).loc main_arg0)) (m ((c : Thread nD τ).loc main_arg1)) (m ((c : Thread nD τ).loc main_arg2)) :=
  (dats m 0 c).arrAt_eq_of_cover 3 _ (fun t _ => flushed_eq m c t) covered

/-- The generated run with the result array named: `G` of the arguments, which end unchanged. -/
theorem run : θ_run defs (onTc (τ := τ) (main (F := Ideal))) ⟨m, fun _ => 0, ρ⟩ fun r => ∀ c : Dev nD,
      r.2.mem ((c : Thread nD τ).loc main_v0)
        = G (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.Whole

end
-- ==== Proof.RefValue.lean ====
/-
  The reference's result array is the specification `SoftAssign.G` of its three argument arrays, index by index.
  The reference program computes, over the whole batch at once, the expanded squared distances of every row to every
  codeword, scales them, takes a softmax over the codeword axis, and contracts the weights with the rows and with
  their own column sums. Read at one index, every stage is the corresponding row-level quantity of `SoftAssign` for
  the batch entry the index names:
    stage at (n, t, k)  — score, shifted exponential, weight of row `t` of entry `n` and codeword `k`;
    stage at (n, t)     — the row's maximum and the softmax's denominator;
    result at (n, k, d) — the aggregated residual.
  The host's sums are finite sums started from the zero word (`0 + Σ = Σ`), its maximum over the codeword axis is the
  fold of `max` from the −∞ word over that axis's 32 coordinates, and the two matrix products are sums over the
  contracted coordinate; nothing here needs the entries to be finite.
-/
import proofs.«106408_j85031762526316_1_alg».proof.Proof.Gen.ReferenceIdeal.Read
import proofs.«106408_j85031762526316_1_alg».proof.Proof.Spec
import Idealize.ShloMosaic.PureOps.Reduce

noncomputable section

namespace Cert.ReferenceIdeal.RefValue

open Cert.ReferenceIdeal Cert.ReferenceIdeal.Gen Cert.ReferenceIdeal.Read Idealize.ShloMosaic Idealize.ShloMosaic.ValueIdx SoftAssign

variable (x : (⟨S64x4096x128, .f32⟩ : BufTy).Contents (Elt Ideal)) (c : (⟨S32x128, .f32⟩ : BufTy).Contents (Elt Ideal))
  (s : (⟨S32, .f32⟩ : BufTy).Contents (Elt Ideal))

/-- Batch entry `n`'s rows, the codewords and the smoothing factors by coordinates. -/
abbrev rows (n : Fin 64) : Fin 4096 → Fin 128 → EReal := fun t d => x (ix3 n t d)
abbrev cws : Fin 32 → Fin 128 → EReal := fun k d => c (ix2 k d)
abbrev sms : Fin 32 → EReal := fun k => s (ix1 k)

/-- The scaled, expanded squared distance, read at `(n, t, k)`. -/
theorem score_eq (j : S64x4096x32.Idx) :
    val_main_v15 (F := Ideal) x c s j = score (rows x (j 0)) (cws c) (sms s) (j 1) (j 2) := by
  rw [val_main_v15_apply, val_main_v14_apply, val_main_v13_apply, val_main_v12_apply, val_main_v9_apply,
    val_main_v8_apply, val_main_v2_apply, val_main_v1_apply, val_main_v7_apply, val_main_v6_apply,
    val_main_cst_1_apply, val_main_v5_apply, val_main_v11_apply, val_main_v10_apply, val_main_v4_apply]
  simp only [val_main_v0_apply, val_main_v3_apply, val_main_cst_apply, val_main_cst_0_apply, Ideal.mulf_def, Ideal.addf_def,
    Ideal.subf_def, Ideal.ofBits_def, Ideal.ofBits_zero_f32, zero_add]
  have e13 : idx_main_v13 (idx_main_v14 j) = ix1 (j 2) :=
    funext fun a => Fin.ext (by match a with | ⟨0, _⟩ => rfl)
  have e1 : ∀ k, idx_main_v1 (idx_main_v2 (idx_main_v8 j)) k = ix3 (j 0) (j 1) k := fun k =>
    funext fun a => Fin.ext (by match a with | ⟨0, _⟩ => rfl | ⟨1, _⟩ => rfl | ⟨2, _⟩ => rfl)
  have e5l : ∀ k, lidx_main_v5 j k = ix3 (j 0) (j 1) k := fun k =>
    funext fun a => Fin.ext (by match a with | ⟨0, _⟩ => rfl | ⟨1, _⟩ => rfl | ⟨2, _⟩ => rfl)
  have e5r : ∀ k, ridx_main_v5 j k = ix2 (j 2) k := fun k =>
    funext fun a => Fin.ext (by match a with | ⟨0, _⟩ => rfl | ⟨1, _⟩ => rfl)
  have e4 : ∀ k, idx_main_v4 (idx_main_v10 (idx_main_v11 j)) k = ix2 (j 2) k := fun k =>
    funext fun a => Fin.ext (by match a with | ⟨0, _⟩ => rfl | ⟨1, _⟩ => rfl)
  simp only [e13, e1, e5l, e5r, e4]
  rfl

/-- The host's maximum over the codeword axis is the fold of `max` from −∞ over the 32 scores of the row. -/
theorem rowFold_eq (i : S64x4096.Idx) :
    val_main_v16 (F := Ideal) x c s i
      = (Finset.univ : Finset (Fin 32)).fold max negInf (fun k => score (rows x (i 0)) (cws c) (sms s) (i 1) k) := by
  have h : S64x4096x32.Reduces [2] S64x4096 := by decide
  unfold val_main_v16
  rw [Host.reduce_eq_fold_single FloatOps.maximumf _ _ reducesTo_S64x4096x32_S64x4096_d2 h h_S_ i]
  show (Finset.univ : Finset (Fin 32)).fold max negInf _ = _
  refine congrArg (fun f => (Finset.univ : Finset (Fin 32)).fold max negInf f) (funext fun (k : Fin 32) => ?_)
  have e : h.lift i k = ix3 (n0 := 64) (n1 := 4096) (n2 := 32) (i 0) (i 1) k :=
    funext fun a => Fin.ext (by match a with | ⟨0, _⟩ => rfl | ⟨1, _⟩ => rfl | ⟨2, _⟩ => rfl)
  exact (congrArg (val_main_v15 (F := Ideal) x c s) e).trans (score_eq x c s _)

/-- … compared once more with −∞: the row's maximum as the specification has it. -/
theorem rowMax_eq (i : S64x4096.Idx) :
    val_main_v18 (F := Ideal) x c s i = rowMax (rows x (i 0)) (cws c) (sms s) (i 1) := by
  rw [val_main_v18_apply, val_main_v17_apply, val_main_cst_3_apply, rowFold_eq]
  rfl

/-- The shifted exponential at `(n, t, k)`. -/
theorem expo_eq (j : S64x4096x32.Idx) :
    val_main_v22 (F := Ideal) x c s j = expo (rows x (j 0)) (cws c) (sms s) (j 1) (j 2) := by
  rw [val_main_v22_apply, val_main_v21_apply, val_main_v20_apply, val_main_v19_apply, score_eq, rowMax_eq]
  rfl

/-- The softmax's denominator at `(n, t)`. -/
theorem denom_eq (i : S64x4096.Idx) :
    val_main_v23 (F := Ideal) x c s i = denom (rows x (i 0)) (cws c) (sms s) (i 1) := by
  rw [val_main_v23_apply, val_main_cst_4_apply]
  simp only [expo_eq, Ideal.ofBits_def, Ideal.ofBits_zero_f32, zero_add]
  rfl

/-- The soft assignment at `(n, t, k)`. -/
theorem weight_eq (j : S64x4096x32.Idx) :
    val_main_v26 (F := Ideal) x c s j = weight (rows x (j 0)) (cws c) (sms s) (j 1) (j 2) := by
  rw [val_main_v26_apply, val_main_v25_apply, val_main_v24_apply, expo_eq, denom_eq]
  rfl

/-- The reference's result at `(n, k, d)` is the aggregated residual of batch entry `n`. -/
theorem result_apply (i : S64x32x128.Idx) : val_main_v34 (F := Ideal) x c s i = G x c s i := by
  rw [val_main_v34_apply, val_main_v33_apply, val_main_v32_apply, val_main_v30_apply, val_main_v31_apply,
    val_main_v29_apply, val_main_v28_apply, val_main_cst_5_apply, val_main_v27_apply]
  simp only [weight_eq, Ideal.ofBits_def, Ideal.ofBits_zero_f32, zero_add, Ideal.subf_def, Ideal.mulf_def]
  have er : ∀ k, ridx_main_v27 i k = ix3 (i 0) k (i 2) := fun k =>
    funext fun a => Fin.ext (by match a with | ⟨0, _⟩ => rfl | ⟨1, _⟩ => rfl | ⟨2, _⟩ => rfl)
  have ec : idx_main_v30 (idx_main_v32 i) = ix2 (i 1) (i 2) :=
    funext fun a => Fin.ext (by match a with | ⟨0, _⟩ => rfl | ⟨1, _⟩ => rfl)
  simp only [er, ec]
  rfl

/-- The reference's result array is `G` of the three argument arrays. -/
theorem result_eq : val_main_v34 (F := Ideal) x c s = G x c s := funext (result_apply x c s)

end Cert.ReferenceIdeal.RefValue

end
-- ==== Proof.lean ====
/-
  The certificate of the soft-assignment residual kernel against its jnp reference, over the extended reals.
  Both programs compute, for every batch entry `n`, codeword `k` and coordinate `d`,
      E n k d = Σ_t A n t k · x n t d − (Σ_t A n t k) · c k d,
  where `A n t ·` is the softmax over the codewords of the scaled squared distances
      s k · ((‖x n t‖² − 2 · ⟨x n t, c k⟩) + ‖c k‖²)
  (`SoftAssign.G`, Proof/Spec.lean). The kernel does it one batch entry per grid point, with two matrix products into
  zero accumulators and lane reductions; the reference does it for the whole batch with `dot_general`s and host
  reductions. At the ideal values a matrix product is the sum over the contracted coordinate, a reduction the finite sum
  (or the fold of `max`) over the reduced coordinate, and the same literal words (2, −∞, 0) stand on both sides, so the two
  results are the same function of the arguments term by term: no law of arithmetic beyond `0 + a = a` is used, and the
  precondition (finite inputs) is never opened.
  • the kernel's result array is `G` of the arguments: Proof/KernelStages.lean (the body's stored value at an entry) and
    Proof/KernelValue.lean (from the 64 blocks to the array), over the generated frame run and blockwise value leg;
  • the reference's result array is `G` of the arguments: Proof/RefValue.lean, over the generated run and its
    read-at-an-index lemmas;
  • the three frames are the generated ones (the reference's is its run with the result dropped), and the idealization
    rewrote nothing, so `preserves` is trivial.
-/
import proofs.«106408_j85031762526316_1_alg».proof.Defs
import proofs.«106408_j85031762526316_1_alg».proof.Proof.Gen.Kernel
import proofs.«106408_j85031762526316_1_alg».proof.Proof.Gen.Kernel.Skeleton
import proofs.«106408_j85031762526316_1_alg».proof.Proof.Gen.Kernel.Launch
import proofs.«106408_j85031762526316_1_alg».proof.Proof.Gen.Kernel.Points
import proofs.«106408_j85031762526316_1_alg».proof.Proof.Gen.Kernel.Frame
import proofs.«106408_j85031762526316_1_alg».proof.Proof.Gen.KernelIdeal
import proofs.«106408_j85031762526316_1_alg».proof.Proof.Gen.KernelIdeal.Skeleton
import proofs.«106408_j85031762526316_1_alg».proof.Proof.Gen.KernelIdeal.Launch
import proofs.«106408_j85031762526316_1_alg».proof.Proof.Gen.KernelIdeal.Points
import proofs.«106408_j85031762526316_1_alg».proof.Proof.Gen.KernelIdeal.Frame
import proofs.«106408_j85031762526316_1_alg».proof.Proof.Gen.ReferenceIdeal
import proofs.«106408_j85031762526316_1_alg».proof.Proof.Gen.Pre_finite_inputs
import proofs.«106408_j85031762526316_1_alg».proof.Proof.Gen.KernelIdeal.Value
import proofs.«106408_j85031762526316_1_alg».proof.Proof.Gen.ReferenceIdeal.Run
import proofs.«106408_j85031762526316_1_alg».proof.Proof.Gen.ReferenceIdeal.Read
import proofs.«106408_j85031762526316_1_alg».proof.Proof.KernelValue
import proofs.«106408_j85031762526316_1_alg».proof.Proof.RefValue
import Idealize.ShloMosaic.Adequacy
import Idealize.ShloMosaic.Init

noncomputable section

namespace Cert.Proof

open Idealize.ShloMosaic Idealize.SL.Sem

/-- The word-level kernel terminates without a fault and leaves its arguments as they were. -/
theorem frame_kernel : Cert.frame_Kernel := fun m ρ _ => Cert.Kernel.Gen.frame m ρ

/-- So does the kernel read at the ideal values. -/
theorem frame_kernelIdeal : Cert.frame_KernelIdeal := fun m ρ _ => Cert.KernelIdeal.Gen.frame m ρ

/-- The reference's frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments both programs end with the result array at `SoftAssign.G` of the
    arguments: the kernel by `Whole.run`, the reference by its run and `RefValue.result_eq`. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v34_eq, Cert.ReferenceIdeal.RefValue.result_eq,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
